-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x5x128x128 : Shape := ⟨4, ![128, 5, 128, 128]⟩
abbrev S_ : Shape := ⟨0, ![]⟩

class Facts : Prop where
  bcast_S_S128x5x128x128 : S_.BroadcastsInDim S128x5x128x128 (![] : Fin 0 → Fin S128x5x128x128.rank)
  reducesTo_S128x5x128x128_S_d0_1_2_3 : S128x5x128x128.ReducesTo [0, 1, 2, 3] S_
  h_S_ : 0 < S_.numel

variable [Facts]

def fn_part1 {F : FTy → Type} [FloatOps F] (main_v13 : IVec S_ 1) (main_v16 : IVec S128x5x128x128 1) : IVec S_ 1 :=
  let main_c_5 : IVec S_ 1 := constantI S_ 1 1#1
  let main_v17 : IVec S_ 1 := (fun x v => Host.reduce IntOp.andi x v reducesTo_S128x5x128x128_S_d0_1_2_3 h_S_) main_v16 main_c_5
  let main_v18 : IVec S_ 1 := andi main_v13 main_v17
  main_v18

def fn {F : FTy → Type} [FloatOps F] (main_arg0 : FVec F S128x5x128x128 .f32) (main_arg1 : FVec F S128x5x128x128 .f32) (main_arg2 : FVec F S128x5x128x128 .f32) (main_arg3 : FVec F S128x5x128x128 .f32) : IVec S_ 1 :=
  let main_v0 : FVec F S128x5x128x128 .f32 := Host.absf main_arg0
  let main_cst : FVec F S_ .f32 := constant S_ .f32 0x7F800000#32
  let main_v1 : FVec F S128x5x128x128 .f32 := broadcastInDim S128x5x128x128 ![] bcast_S_S128x5x128x128 main_cst
  let main_v2 : IVec S128x5x128x128 1 := cmpf .olt main_v0 main_v1
  let main_c : IVec S_ 1 := constantI S_ 1 1#1
  let main_v3 : IVec S_ 1 := (fun x v => Host.reduce IntOp.andi x v reducesTo_S128x5x128x128_S_d0_1_2_3 h_S_) main_v2 main_c
  let main_v4 : FVec F S128x5x128x128 .f32 := Host.absf main_arg1
  let main_cst_0 : FVec F S_ .f32 := constant S_ .f32 0x7F800000#32
  let main_v5 : FVec F S128x5x128x128 .f32 := broadcastInDim S128x5x128x128 ![] bcast_S_S128x5x128x128 main_cst_0
  let main_v6 : IVec S128x5x128x128 1 := cmpf .olt main_v4 main_v5
  let main_c_1 : IVec S_ 1 := constantI S_ 1 1#1
  let main_v7 : IVec S_ 1 := (fun x v => Host.reduce IntOp.andi x v reducesTo_S128x5x128x128_S_d0_1_2_3 h_S_) main_v6 main_c_1
  let main_v8 : IVec S_ 1 := andi main_v3 main_v7
  let main_v9 : FVec F S128x5x128x128 .f32 := Host.absf main_arg2
  let main_cst_2 : FVec F S_ .f32 := constant S_ .f32 0x7F800000#32
  let main_v10 : FVec F S128x5x128x128 .f32 := broadcastInDim S128x5x128x128 ![] bcast_S_S128x5x128x128 main_cst_2
  let main_v11 : IVec S128x5x128x128 1 := cmpf .olt main_v9 main_v10
  let main_c_3 : IVec S_ 1 := constantI S_ 1 1#1
  let main_v12 : IVec S_ 1 := (fun x v => Host.reduce IntOp.andi x v reducesTo_S128x5x128x128_S_d0_1_2_3 h_S_) main_v11 main_c_3
  let main_v13 : IVec S_ 1 := andi main_v8 main_v12
  let main_v14 : FVec F S128x5x128x128 .f32 := Host.absf main_arg3
  let main_cst_4 : FVec F S_ .f32 := constant S_ .f32 0x7F800000#32
  let main_v15 : FVec F S128x5x128x128 .f32 := broadcastInDim S128x5x128x128 ![] bcast_S_S128x5x128x128 main_cst_4
  let main_v16 : IVec S128x5x128x128 1 := cmpf .olt main_v14 main_v15
  fn_part1 (F := F) main_v13 main_v16
-- ==== Kernel.lean ====
abbrev S128x5x128x128 : Shape := ⟨4, ![128, 5, 128, 128]⟩
abbrev S1x1 : Shape := ⟨2, ![1, 1]⟩
abbrev S8x5x128x128 : Shape := ⟨4, ![8, 5, 128, 128]⟩
abbrev S8x1x128x128 : Shape := ⟨4, ![8, 1, 128, 128]⟩
abbrev S8x128x128 : Shape := ⟨3, ![8, 128, 128]⟩
abbrev S8x128 : Shape := ⟨2, ![8, 128]⟩
abbrev S8 : Shape := ⟨1, ![8]⟩
abbrev S1x8 : Shape := ⟨2, ![1, 8]⟩
abbrev S1 : Shape := ⟨1, ![1]⟩
abbrev S_ : Shape := ⟨0, ![]⟩

abbrev nBuf : Space → Nat
  | .hbm => 6
  | .vmem => 10
  | .smem => 0
  | _ => 0

abbrev bufTy : (tb : Table) → Fin (tcTables nBuf tb) → BufTy
  | .hbm, ⟨0, _⟩ => ⟨S128x5x128x128, .f32⟩
  | .hbm, ⟨1, _⟩ => ⟨S128x5x128x128, .f32⟩
  | .hbm, ⟨2, _⟩ => ⟨S128x5x128x128, .f32⟩
  | .hbm, ⟨3, _⟩ => ⟨S128x5x128x128, .f32⟩
  | .hbm, ⟨4, _⟩ => ⟨S1x1, .f32⟩
  | .hbm, ⟨5, _⟩ => ⟨S_, .f32⟩
  | .local _ .vmem, ⟨0, _⟩ => ⟨S8x5x128x128, .f32⟩
  | .local _ .vmem, ⟨1, _⟩ => ⟨S8x5x128x128, .f32⟩
  | .local _ .vmem, ⟨2, _⟩ => ⟨S8x5x128x128, .f32⟩
  | .local _ .vmem, ⟨3, _⟩ => ⟨S8x5x128x128, .f32⟩
  | .local _ .vmem, ⟨4, _⟩ => ⟨S8x5x128x128, .f32⟩
  | .local _ .vmem, ⟨5, _⟩ => ⟨S8x5x128x128, .f32⟩
  | .local _ .vmem, ⟨6, _⟩ => ⟨S8x5x128x128, .f32⟩
  | .local _ .vmem, ⟨7, _⟩ => ⟨S8x5x128x128, .f32⟩
  | .local _ .vmem, ⟨8, _⟩ => ⟨S1x1, .f32⟩
  | .local _ .vmem, ⟨9, _⟩ => ⟨S1x1, .f32⟩
  | _, _ => ⟨S128x5x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v29 : BitVec 1 := Scalar.cmpi .eq arg0 c15_i32
  let v30 : BitVec 32 := Scalar.extui v29
  let c0_i32_25 : BitVec 32 := 0#32
  let v31 : BitVec 1 := Scalar.cmpi .ne v30 c0_i32_25
  v31

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x5x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x5x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x5x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x5x128x128_S8x5x128x128_0_0_0_0 : ∀ a, (![0, 0, 0, 0] : Fin 4 → Nat) a + S8x5x128x128.size a ≤ S8x5x128x128.size a
  h_S8x5x128x128 : 0 < S8x5x128x128.numel
  slices_S8x5x128x128_o0_0_0_0_S8x1x128x128 : S8x5x128x128.Slices ![0, 0, 0, 0] S8x1x128x128
  shapeCasts_S8x1x128x128_S8x128x128 : S8x1x128x128.ShapeCasts S8x128x128
  reduces_S8x5x128x128_S8x128x128 : S8x5x128x128.Reduces [1] S8x128x128
  reduces_S8x128x128_S8x128 : S8x128x128.Reduces [2] S8x128
  reduces_S8x128_S8 : S8x128.Reduces [1] S8
  shapeCasts_S8_S1x8 : S8.ShapeCasts S1x8
  reduces_S1x8_S1 : S1x8.Reduces [1] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x5x128x128.size a ≤ S128x5x128x128.size a
  hwx0_0 : ∀ i : grid0.Coords, EltTy.bits .f32 = 32 ∨ (Rect.block (s := S128x5x128x128) S8x5x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x5x128x128.size a ≤ S128x5x128x128.size a
  hwx0_1 : ∀ i : grid0.Coords, EltTy.bits .f32 = 32 ∨ (Rect.block (s := S128x5x128x128) S8x5x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x5x128x128.size a ≤ S128x5x128x128.size a
  hwx0_2 : ∀ i : grid0.Coords, EltTy.bits .f32 = 32 ∨ (Rect.block (s := S128x5x128x128) S8x5x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x5x128x128.size a ≤ S128x5x128x128.size a
  hwx0_3 : ∀ i : grid0.Coords, EltTy.bits .f32 = 32 ∨ (Rect.block (s := S128x5x128x128) S8x5x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S8x5x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x5x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x5x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x5x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S128x5x128x128 : Shape := ⟨4, ![128, 5, 128, 128]⟩
abbrev S128x1x128x128 : Shape := ⟨4, ![128, 1, 128, 128]⟩
abbrev S128x128x128 : Shape := ⟨3, ![128, 128, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S128x5x128x128, .f32⟩
  | .hbm, ⟨1, _⟩ => ⟨S128x5x128x128, .f32⟩
  | .hbm, ⟨2, _⟩ => ⟨S128x5x128x128, .f32⟩
  | .hbm, ⟨3, _⟩ => ⟨S128x5x128x128, .f32⟩
  | .hbm, ⟨4, _⟩ => ⟨S128x1x128x128, .f32⟩
  | .hbm, ⟨5, _⟩ => ⟨S128x128x128, .f32⟩
  | .hbm, ⟨6, _⟩ => ⟨S_, .f32⟩
  | .hbm, ⟨7, _⟩ => ⟨S128x128x128, .f32⟩
  | .hbm, ⟨8, _⟩ => ⟨S128x128x128, .i1⟩
  | .hbm, ⟨9, _⟩ => ⟨S128x5x128x128, .f32⟩
  | .hbm, ⟨10, _⟩ => ⟨S128x5x128x128, .f32⟩
  | .hbm, ⟨11, _⟩ => ⟨S128x5x128x128, .f32⟩
  | .hbm, ⟨12, _⟩ => ⟨S128x5x128x128, .f32⟩
  | .hbm, ⟨13, _⟩ => ⟨S128x5x128x128, .f32⟩
  | .hbm, ⟨14, _⟩ => ⟨S_, .f32⟩
  | .hbm, ⟨15, _⟩ => ⟨S128x128x128, .f32⟩
  | .hbm, ⟨16, _⟩ => ⟨S_, .f32⟩
  | .hbm, ⟨17, _⟩ => ⟨S128x128x128, .f32⟩
  | .hbm, ⟨18, _⟩ => ⟨S128x128x128, .f32⟩
  | .hbm, ⟨19, _⟩ => ⟨S_, .f32⟩
  | .hbm, ⟨20, _⟩ => ⟨S_, .f32⟩
  | _, _ => ⟨S128x5x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  slices_S128x5x128x128_S128x1x128x128_0_0_0_0 : S128x5x128x128.Slices ![0, 0, 0, 0] S128x1x128x128
  shapeCasts_S128x1x128x128_S128x128x128 : S128x1x128x128.ShapeCasts S128x128x128
  bcast_S_S128x128x128 : S_.BroadcastsInDim S128x128x128 (![] : Fin 0 → Fin S128x128x128.rank)
  reducesTo_S128x5x128x128_S128x128x128_d1 : S128x5x128x128.ReducesTo [1] S128x128x128
  h_S_ : 0 < S_.numel
  reducesTo_S128x128x128_S_d0_1_2 : S128x128x128.ReducesTo [0, 1, 2] S_

variable [Facts₀]

class Facts : Prop extends Facts₀ where

variable [Facts]
-- ==== Proof.Found.lean ====
/-
  What each control case of the body leaves in the scratch cell and in the output block, as values.

  The body keeps one running total in a [1, 1] scratch cell. At the first grid point it stores the reset value, reads it
  back and stores the update over it (two stores, the later covering the earlier); at every later point it reads what the
  point before left and stores the update (one store); at the last point it also copies the scratch cell, read back after
  that store, into the output block. So in every case the scratch cell ends at the update payload of the point's four
  input blocks and of what the cell held when the update read it — the reset payload at the first point, the previous
  point's contents afterwards — and at the last point the output block holds the same value. Each load reads a whole
  buffer through the zero offset, so it returns the buffer's contents; each store writes the whole cell, so the cell
  reads back the stored payload. This holds at any float instance.
-/
import proofs.«161553_j86655260164796_1_alg».proof.Proof.Gen.KernelIdeal.Frame
import Idealize.ShloMosaic.Lib.Pipeline.Value
import Idealize.ShloMosaic.Lib.Tactic

noncomputable section

namespace Cert.KernelIdeal.Found

open Idealize.ShloMosaic Idealize.ShloMosaic.TcCoe Idealize.SL.Sem Idealize.ShloMosaic.Tactic
open Cert.KernelIdeal Cert.KernelIdeal.Gen

variable {F : FTy → Type} [FloatOps F]

/-- The zero offset of a [1, 1] cell and of a [8, 5, 128, 128] block. -/
theorem offset_cell : (![0, 0] : Fin 2 → Nat) = fun _ => 0 := funext fun a => by fin_cases a <;> rfl
theorem offset_block : (![0, 0, 0, 0] : Fin 4 → Nat) = fun _ => 0 := funext fun a => by fin_cases a <;> rfl

/-- First point: the scratch cell ends at the update of the reset value. -/
theorem scratch_first (c : Dev nD) (i : grid0.Coords) (a1 : Memref sig .tc .vmem S8x5x128x128 .f32) (h1 : a1.IsWhole) (a2 : Memref sig .tc .vmem S8x5x128x128 .f32) (h2 : a2.IsWhole) (a3 : Memref sig .tc .vmem S8x5x128x128 .f32) (h3 : a3.IsWhole) (a4 : Memref sig .tc .vmem S8x5x128x128 .f32) (h4 : a4.IsWhole) (a5 : Memref sig .tc .vmem S1x1 .f32) (h5 : a5.IsWhole) (a6 : Memref sig .tc .vmem S1x1 .f32) (h6 : a6.IsWhole)
    (hc0 : cond0_0 i) (hc1 : ¬cond0_1 i) (x0 x1 x2 x3 : Vec F S8x5x128x128 .f32) :
    sout0_A_0 c i a1 h1 a2 h2 a3 h3 a4 h4 a5 h5 a6 h6 hc0 hc1 x0 x1 x2 x3 = k0_pay2 x0 x1 x2 x3 (k0_pay1 (F := F)) := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  rw [View.canon_cons_unit_zero (S := S1x1) offset_cell, View.readCov_unit_zero (S := S1x1) _ offset_cell]
  simp only [View.readAt_eq_ld, h1.read_unread, h2.read_unread, h3.read_unread, h4.read_unread,
    View.ld_unit_zero (S := S8x5x128x128) offset_block]

/-- A middle point: the scratch cell ends at the update of what it held. -/
theorem scratch_middle (c : Dev nD) (i : grid0.Coords) (a1 : Memref sig .tc .vmem S8x5x128x128 .f32) (h1 : a1.IsWhole) (a2 : Memref sig .tc .vmem S8x5x128x128 .f32) (h2 : a2.IsWhole) (a3 : Memref sig .tc .vmem S8x5x128x128 .f32) (h3 : a3.IsWhole) (a4 : Memref sig .tc .vmem S8x5x128x128 .f32) (h4 : a4.IsWhole) (a5 : Memref sig .tc .vmem S1x1 .f32) (h5 : a5.IsWhole) (a6 : Memref sig .tc .vmem S1x1 .f32) (h6 : a6.IsWhole)
    (hc0 : ¬cond0_0 i) (hc1 : ¬cond0_1 i) (x0 x1 x2 x3 : Vec F S8x5x128x128 .f32) (xs : Vec F S1x1 .f32) :
    sout0_B_0 c i a1 h1 a2 h2 a3 h3 a4 h4 a5 h5 a6 h6 hc0 hc1 x0 x1 x2 x3 xs = k0_pay2 x0 x1 x2 x3 xs := by
  unfold sout0_B_0
  rw [View.read_writes_eq_canon _ _ _ (scover0_B_0 c i a1 h1 a2 h2 a3 h3 a4 h4 a5 h5 a6 h6 hc0 hc1 x0 x1 x2 x3 xs)]
  unfold kernelRun0_B
  dsimp only
  sl_unfold_words
  rw [View.canon_unit_zero offset_cell]
  simp only [View.readAt_eq_ld, h1.read_unread, h2.read_unread, h3.read_unread, h4.read_unread, h6.read_unread,
    View.ld_unit_zero (S := S8x5x128x128) offset_block, View.ld_unit_zero (S := S1x1) offset_cell]

/-- The last point: the scratch cell ends at the update of what it held, -/
theorem scratch_last (c : Dev nD) (i : grid0.Coords) (a1 : Memref sig .tc .vmem S8x5x128x128 .f32) (h1 : a1.IsWhole) (a2 : Memref sig .tc .vmem S8x5x128x128 .f32) (h2 : a2.IsWhole) (a3 : Memref sig .tc .vmem S8x5x128x128 .f32) (h3 : a3.IsWhole) (a4 : Memref sig .tc .vmem S8x5x128x128 .f32) (h4 : a4.IsWhole) (a5 : Memref sig .tc .vmem S1x1 .f32) (h5 : a5.IsWhole) (a6 : Memref sig .tc .vmem S1x1 .f32) (h6 : a6.IsWhole)
    (hc0 : ¬cond0_0 i) (hc1 : cond0_1 i) (x0 x1 x2 x3 : Vec F S8x5x128x128 .f32) (xs : Vec F S1x1 .f32) :
    sout0_C_0 c i a1 h1 a2 h2 a3 h3 a4 h4 a5 h5 a6 h6 hc0 hc1 x0 x1 x2 x3 xs = k0_pay2 x0 x1 x2 x3 xs := by
  unfold sout0_C_0
  rw [View.read_writes_eq_canon _ _ _ (scover0_C_0 c i a1 h1 a2 h2 a3 h3 a4 h4 a5 h5 a6 h6 hc0 hc1 x0 x1 x2 x3 xs)]
  unfold kernelRun0_C
  dsimp only
  sl_unfold_words
  rw [View.canon_unit_zero offset_cell]
  simp only [View.readAt_eq_ld, h1.read_unread, h2.read_unread, h3.read_unread, h4.read_unread, h6.read_unread,
    View.ld_unit_zero (S := S8x5x128x128) offset_block, View.ld_unit_zero (S := S1x1) offset_cell]

/-- and the output block holds the same value: the scratch cell read back after that store. -/
theorem output_last (c : Dev nD) (i : grid0.Coords) (a1 : Memref sig .tc .vmem S8x5x128x128 .f32) (h1 : a1.IsWhole) (a2 : Memref sig .tc .vmem S8x5x128x128 .f32) (h2 : a2.IsWhole) (a3 : Memref sig .tc .vmem S8x5x128x128 .f32) (h3 : a3.IsWhole) (a4 : Memref sig .tc .vmem S8x5x128x128 .f32) (h4 : a4.IsWhole) (a5 : Memref sig .tc .vmem S1x1 .f32) (h5 : a5.IsWhole) (a6 : Memref sig .tc .vmem S1x1 .f32) (h6 : a6.IsWhole)
    (hc0 : ¬cond0_0 i) (hc1 : cond0_1 i) (x0 x1 x2 x3 : Vec F S8x5x128x128 .f32) (xs : Vec F S1x1 .f32) :
    out0_C_4 c i a1 h1 a2 h2 a3 h3 a4 h4 a5 h5 a6 h6 hc0 hc1 x0 x1 x2 x3 xs = k0_pay2 x0 x1 x2 x3 xs := by
  unfold out0_C_4
  rw [View.read_writes_eq_canon _ _ _ (cover0_C_4 c i a1 h1 a2 h2 a3 h3 a4 h4 a5 h5 a6 h6 hc0 hc1 x0 x1 x2 x3 xs)]
  unfold kernelRun0_C
  dsimp only
  sl_unfold_words
  rw [View.canon_unit_zero offset_cell]
  simp only [View.readAt_eq_ld, h1.read_unread, h2.read_unread, h3.read_unread, h4.read_unread, h6.read_unread,
    View.ld_unit_zero (S := S8x5x128x128) offset_block, View.ld_unit_zero (S := S1x1) offset_cell,
    View.readCov_unit_zero (S := S1x1) _ offset_cell]

end Cert.KernelIdeal.Found

end
-- ==== Proof.MaskedLoss.lean ====
/-
  The masked squared-difference loss, cell by cell, and the one law between its two groupings.

  For four arrays a0 a1 a2 a3 of shape [n, 5, 128, 128] a CELL is a triple (b, h, w); its four COLUMNS are the five
  channel entries of each array at that cell. The cell contributes
      Σ_c ((a0 − a2)² + (a1 − a3)²)(b, c, h, w)      when channel 0 of a0 at the cell is not zero,
      0                                              otherwise,
  a function of the four columns alone (cellOf). A batch row's loss is the sum of its cells (rowLoss), and the loss of
  an array of n batch rows the sum of the rows' (batchLoss). Everything is over the extended reals, whose addition is
  commutative and associative, so the only law used is that a sum over 128 batch rows is the sum, over the 16 consecutive
  groups of 8 rows, of each group's sum: no distributivity, no cancellation, hence no finiteness.
-/
import Idealize.ShloMosaic.Lib.ValueIdx

open scoped BigOperators

noncomputable section

namespace Cert.MaskedLoss

open Idealize.ShloMosaic Idealize.ShloMosaic.ValueIdx

/-- One cell's contribution, from its four columns: the sum over the five channels of the two squared differences where
    the first column's channel 0 is not zero, and zero elsewhere. -/
def cellOf (p0 p1 p2 p3 : Fin 5 → EReal) : EReal :=
  if p0 0 ≠ 0 then ∑ c : Fin 5, ((p0 c - p2 c) * (p0 c - p2 c) + (p1 c - p3 c) * (p1 c - p3 c)) else 0

/-- A select on "x is not zero" with zero as the other branch. The not-equal test may be the ordered or the unordered
    predicate: on the extended reals, which have no unordered pair, the two are one test. -/
theorem select_ne_zero (p : CmpFPredicate) (hp : p = .one ∨ p = .une) (x A : EReal) :
    Scalar.select (Ideal.cmp p x 0) A 0 = if x ≠ 0 then A else 0 := by
  rcases hp with rfl | rfl <;> by_cases h : x = 0 <;> simp [Scalar.select, Ideal.cmp, h]

/-- Array a's column at the cell (b, h, w). -/
abbrev col {n : Nat} (a : (⟨4, ![n, 5, 128, 128]⟩ : Shape).Idx → EReal) (b : Fin n) (h w : Fin 128) : Fin 5 → EReal :=
  fun c => a (ix4 b c h w)

/-- The loss of batch row b: the sum of its 128 × 128 cells. -/
def rowLoss {n : Nat} (a0 a1 a2 a3 : (⟨4, ![n, 5, 128, 128]⟩ : Shape).Idx → EReal) (b : Fin n) : EReal :=
  ∑ h : Fin 128, ∑ w : Fin 128, cellOf (col a0 b h w) (col a1 b h w) (col a2 b h w) (col a3 b h w)

/-- The loss of arrays of n batch rows: the sum of the rows' losses. -/
def batchLoss {n : Nat} (a0 a1 a2 a3 : (⟨4, ![n, 5, 128, 128]⟩ : Shape).Idx → EReal) : EReal :=
  ∑ b : Fin n, rowLoss a0 a1 a2 a3 b

/-- A sum over 128 rows is the sum over the 16 groups of 8 consecutive rows of each group's sum, the groups taken
    as a sum over the naturals below 16 (the form a running total over the groups has). -/
theorem sum_rows_eq_sum_groups {M : Type*} [AddCommMonoid M] (g : Fin 128 → M) :
    ∑ r : Fin 128, g r
      = ∑ n ∈ Finset.range 16, (if hn : n < 16 then ∑ b : Fin 8, g ⟨8 * n + b.val, by have := b.isLt; omega⟩ else 0) := by
  rw [← Fin.sum_univ_eq_sum_range
    (fun n => if hn : n < 16 then ∑ b : Fin 8, g ⟨8 * n + b.val, by have := b.isLt; omega⟩ else 0) 16]
  -- a row number is 8 · (its group) + (its place in the group)
  let e : Fin 16 × Fin 8 ≃ Fin 128 := finProdFinEquiv
  calc ∑ r : Fin 128, g r
      = ∑ p : Fin 16 × Fin 8, g (e p) := (Equiv.sum_comp e g).symm
    _ = ∑ t : Fin 16, ∑ b : Fin 8, g (e (t, b)) := Fintype.sum_prod_type _
    _ = _ := Finset.sum_congr rfl fun t _ => by
        rw [dif_pos t.isLt]
        exact Finset.sum_congr rfl fun b _ => congrArg g (Fin.ext (by
          show b.val + 8 * t.val = 8 * t.val + b.val
          omega))

end Cert.MaskedLoss

end
-- ==== Proof.BlockValue.lean ====
/-
  What one grid point's body computes, at the ideal instance, from the four blocks [8, 5, 128, 128] it loads and the
  running total it finds in the scratch cell: the total plus the loss of the block's eight batch rows.

  The body forms (x0 − x2)² + (x1 − x3)² entry by entry, sums it over the channel axis, keeps the cells whose channel 0
  of x0 is not zero, and then sums the lane axis, the row axis and the eight batch rows one axis at a time; each of
  these sums, read at an index written by coordinates, is a sum over that axis's coordinate, so the four together are
  the iterated sum over (b, h, w) of the cell's contribution (MaskedLoss.cellOf).
-/
import proofs.«161553_j86655260164796_1_alg».proof.Proof.Gen.KernelIdeal.Skeleton
import proofs.«161553_j86655260164796_1_alg».proof.Proof.MaskedLoss
import Idealize.ShloMosaic.Lib.ValueIdx
import Idealize.ShloMosaic.Lib.Pipeline.Value
import Idealize.ShloMosaic.PureOps.Ideal.Laws

open scoped BigOperators

noncomputable section

namespace Cert.KernelIdeal.BlockValue

open Idealize.ShloMosaic Idealize.ShloMosaic.ValueIdx Cert.KernelIdeal Cert.KernelIdeal.Gen Cert.MaskedLoss

/-! ## Each single-axis sum, read at an index written by coordinates -/

/-- The sum over the channel axis at the cell (b, h, w) is the sum over the five channels. -/
theorem sum_channels (v : FVec Ideal S8x5x128x128 .f32) (hr : S8x5x128x128.Reduces [1] S8x128x128)
    (hφ : FKind.Formats .f32) (hacc : (0x00000000#32 : BitVec 32) = FKind.add.neutral .f32 hφ)
    (b : Fin 8) (h w : Fin 128) :
    multiReduction .add [1] S8x128x128 v 0x00000000#32 hr hφ hacc (ix3 b h w) = ∑ c : Fin 5, v (ix4 b c h w) :=
  (Ideal.multiReduction_add_single v 0x00000000#32 hr hφ hacc (ix3 b h w)).trans
    (Finset.sum_congr rfl fun c _ => congrArg v (funext fun a => Fin.ext (by
      match a with | ⟨0, _⟩ => rfl | ⟨1, _⟩ => rfl | ⟨2, _⟩ => rfl | ⟨3, _⟩ => rfl)))

/-- The sum over the lane axis at (b, h) is the sum over the 128 lanes. -/
theorem sum_lanes (v : FVec Ideal S8x128x128 .f32) (hr : S8x128x128.Reduces [2] S8x128)
    (hφ : FKind.Formats .f32) (hacc : (0x00000000#32 : BitVec 32) = FKind.add.neutral .f32 hφ)
    (b : Fin 8) (h : Fin 128) :
    multiReduction .add [2] S8x128 v 0x00000000#32 hr hφ hacc (ix2 b h) = ∑ w : Fin 128, v (ix3 b h w) :=
  (Ideal.multiReduction_add_single v 0x00000000#32 hr hφ hacc (ix2 b h)).trans
    (Finset.sum_congr rfl fun w _ => congrArg v (funext fun a => Fin.ext (by
      match a with | ⟨0, _⟩ => rfl | ⟨1, _⟩ => rfl | ⟨2, _⟩ => rfl)))

/-- The sum over the row axis at batch row b is the sum over the 128 rows. -/
theorem sum_rows (v : FVec Ideal S8x128 .f32) (hr : S8x128.Reduces [1] S8)
    (hφ : FKind.Formats .f32) (hacc : (0x00000000#32 : BitVec 32) = FKind.add.neutral .f32 hφ) (b : Fin 8) :
    multiReduction .add [1] S8 v 0x00000000#32 hr hφ hacc (ix1 b) = ∑ h : Fin 128, v (ix2 b h) :=
  (Ideal.multiReduction_add_single v 0x00000000#32 hr hφ hacc (ix1 b)).trans
    (Finset.sum_congr rfl fun h _ => congrArg v (funext fun a => Fin.ext (by
      match a with | ⟨0, _⟩ => rfl | ⟨1, _⟩ => rfl)))

/-- The sum over the eight batch rows laid out as one row [1, 8]. -/
theorem sum_batch (v : FVec Ideal S1x8 .f32) (hr : S1x8.Reduces [1] S1)
    (hφ : FKind.Formats .f32) (hacc : (0x00000000#32 : BitVec 32) = FKind.add.neutral .f32 hφ) (z : Fin 1) :
    multiReduction .add [1] S1 v 0x00000000#32 hr hφ hacc (ix1 z) = ∑ b : Fin 8, v (ix2 z b) :=
  (Ideal.multiReduction_add_single v 0x00000000#32 hr hφ hacc (ix1 z)).trans
    (Finset.sum_congr rfl fun b _ => congrArg v (funext fun a => Fin.ext (by
      match a with | ⟨0, _⟩ => rfl | ⟨1, _⟩ => rfl)))

/-! ## The layout steps between them -/

/-- The eight per-row sums viewed as one row: entry (0, b) is row b's sum. -/
theorem row_view (v : FVec Ideal S8 .f32) (hc : S8.ShapeCasts S1x8) (z : Fin 1) (b : Fin 8) :
    shapeCast S1x8 v hc (ix2 z b) = v (ix1 b) :=
  shapeCast_apply v hc (ix2 z b) (ix1 b) (by
    rw [Shape.rowMajor_val_one, Shape.rowMajor_val_two]
    have hz : z.val = 0 := by have := z.isLt; omega
    show b.val = z.val * 8 + b.val
    omega)

/-- The one total viewed as a [1, 1] block. -/
theorem cell_view (v : FVec Ideal S1 .f32) (hc : S1.ShapeCasts S1x1) (j : S1x1.Idx) :
    shapeCast S1x1 v hc j = v (ix1 0) :=
  shapeCast_apply v hc j (ix1 0) (by
    rw [Shape.rowMajor_val_one, Shape.rowMajor_val_two]
    have h0 : (j 0).val < 1 := (j 0).isLt
    have h1 : (j 1).val < 1 := (j 1).isLt
    show (0 : Nat) = (j 0).val * 1 + (j 1).val
    omega)

/-- Channel 0 of a block, with the channel axis dropped, at the cell (b, h, w). -/
theorem channel_zero (x : FVec Ideal S8x5x128x128 .f32) (hs : S8x5x128x128.Slices ![0, 0, 0, 0] S8x1x128x128)
    (hc : S8x1x128x128.ShapeCasts S8x128x128) (b : Fin 8) (h w : Fin 128) :
    shapeCast S8x128x128 (extractStridedSlice S8x1x128x128 ![0, 0, 0, 0] x hs) hc (ix3 b h w) = x (ix4 b 0 h w) :=
  (shapeCast_apply _ hc (ix3 b h w) (ix4 b (0 : Fin 1) h w) (by
    rw [Shape.rowMajor_val_four, Shape.rowMajor_val_three]
    show ((b.val * 1 + 0) * 128 + h.val) * 128 + w.val = (b.val * 128 + h.val) * 128 + w.val
    omega)).trans
  (extractStridedSlice_apply ![0, 0, 0, 0] x hs (ix4 b (0 : Fin 1) h w) (ix4 b (0 : Fin 5) h w) fun a => by
    match a with
    | ⟨0, _⟩ => show b.val = 0 + b.val; omega
    | ⟨1, _⟩ => show (0 : Nat) = 0 + 0; omega
    | ⟨2, _⟩ => show h.val = 0 + h.val; omega
    | ⟨3, _⟩ => show w.val = 0 + w.val; omega)

/-! ## The two payloads -/

/-- The reset stores zero. -/
theorem reset_apply (j : S1x1.Idx) : k0_pay1 (F := Ideal) j = 0 := by
  unfold k0_pay1
  rw [shapeCast_self]
  exact Ideal.ofBits_zero_f32

/-- The update stores the total it found plus the loss of the block's eight batch rows. -/
theorem update_apply (x0 x1 x2 x3 : FVec Ideal S8x5x128x128 .f32) (acc : FVec Ideal S1x1 .f32) (j : S1x1.Idx) :
    k0_pay2 (F := Ideal) x0 x1 x2 x3 acc j = acc j + batchLoss x0 x1 x2 x3 := by
  unfold k0_pay2
  rw [shapeCast_self]
  refine congrArg (acc j + ·) ?_
  refine (cell_view _ _ j).trans ?_
  refine (sum_batch _ _ _ _ 0).trans ?_
  unfold batchLoss
  refine Finset.sum_congr rfl fun b _ => ?_
  refine (row_view _ _ 0 b).trans ?_
  refine (sum_rows _ _ _ _ b).trans ?_
  unfold rowLoss
  refine Finset.sum_congr rfl fun h _ => ?_
  refine (sum_lanes _ _ _ _ b h).trans ?_
  refine Finset.sum_congr rfl fun w _ => ?_
  -- one cell: the select on channel 0 of x0, over the channel sum
  rw [select_apply, cmpf_apply, channel_zero, broadcast_apply]
  refine (congrArg (fun s => Scalar.select (FloatOps.cmpf .one (x0 (ix4 b 0 h w)) (FloatOps.ofBits .f32 0x00000000#32)) s
    (FloatOps.ofBits .f32 0x00000000#32)) (sum_channels _ _ _ _ b h w)).trans ?_
  show Scalar.select (Ideal.cmp .one (x0 (ix4 b 0 h w)) (Ideal.ofBits .f32 0x00000000#32)) _ (Ideal.ofBits .f32 0x00000000#32) = _
  rw [Ideal.ofBits_zero_f32, select_ne_zero .one (.inl rfl)]
  rfl

/-- Over a cell that holds the one value s, the update leaves the one value s plus the block's loss. -/
theorem update_const (x0 x1 x2 x3 : FVec Ideal S8x5x128x128 .f32) (s : EReal) :
    k0_pay2 (F := Ideal) x0 x1 x2 x3 (fun _ => s) = fun _ => s + batchLoss x0 x1 x2 x3 :=
  funext fun j => update_apply x0 x1 x2 x3 (fun _ => s) j

/-- Over the reset value, the update leaves the block's loss. -/
theorem update_reset (x0 x1 x2 x3 : FVec Ideal S8x5x128x128 .f32) :
    k0_pay2 (F := Ideal) x0 x1 x2 x3 (k0_pay1 (F := Ideal)) = fun _ => batchLoss x0 x1 x2 x3 :=
  funext fun j => (update_apply x0 x1 x2 x3 _ j).trans (by rw [reset_apply, zero_add])

end Cert.KernelIdeal.BlockValue

end
-- ==== Proof.Running.lean ====
/-
  The running total over the grid, at the ideal instance.

  Grid point t loads, from each of the four arrays, the block of batch rows 8t … 8t + 7 (all channels, rows and lanes),
  and adds the loss of those eight rows to the scratch cell, which the first point resets. So after point n the cell
  holds the sum of the losses of the blocks of points 0 … n (by induction on the point: the first point leaves the
  first block's loss, each later point adds its own), and after the last point, 15, it holds the sum over all sixteen
  blocks, which the last point also copies into the output block. Because a batch row's loss depends only on that row's
  entries, and block t's row b is the arrays' row 8t + b, the sixteen block losses add up to the loss of the whole
  arrays (MaskedLoss.sum_rows_eq_sum_groups).
-/
import proofs.«161553_j86655260164796_1_alg».proof.Proof.Gen.KernelIdeal.Frame
import proofs.«161553_j86655260164796_1_alg».proof.Proof.Found
import proofs.«161553_j86655260164796_1_alg».proof.Proof.BlockValue
import proofs.«161553_j86655260164796_1_alg».proof.Proof.MaskedLoss
import Idealize.ShloMosaic.Lib.ValueIdx

open scoped BigOperators

noncomputable section

namespace Cert.KernelIdeal.Running

open Idealize.ShloMosaic Idealize.ShloMosaic.TcCoe Idealize.ShloMosaic.ValueIdx Idealize.SL.Sem
open Cert.KernelIdeal Cert.KernelIdeal.Gen Cert.MaskedLoss

variable (m : (ℓ : Loc nD τ sig) → Buf (Elt Ideal) ℓ)

/-! ## The arrays and the blocks, at their literal types -/

/-- The four argument arrays on core c. -/
abbrev arr0 (c : Dev nD) : FVec Ideal S128x5x128x128 .f32 := m ((c : Thread nD τ).loc main_arg0)
abbrev arr1 (c : Dev nD) : FVec Ideal S128x5x128x128 .f32 := m ((c : Thread nD τ).loc main_arg1)
abbrev arr2 (c : Dev nD) : FVec Ideal S128x5x128x128 .f32 := m ((c : Thread nD τ).loc main_arg2)
abbrev arr3 (c : Dev nD) : FVec Ideal S128x5x128x128 .f32 := m ((c : Thread nD τ).loc main_arg3)

/-- The four blocks point t loads. -/
abbrev blk0 (c : Dev nD) (t : Fin cfg0.N) : FVec Ideal S8x5x128x128 .f32 := iblk m c 0 t
abbrev blk1 (c : Dev nD) (t : Fin cfg0.N) : FVec Ideal S8x5x128x128 .f32 := iblk m c 1 t
abbrev blk2 (c : Dev nD) (t : Fin cfg0.N) : FVec Ideal S8x5x128x128 .f32 := iblk m c 2 t
abbrev blk3 (c : Dev nD) (t : Fin cfg0.N) : FVec Ideal S8x5x128x128 .f32 := iblk m c 3 t

/-- The grid has sixteen points. -/
theorem sixteen : cfg0.N = 16 := N_0

/-- Batch row b of point t's blocks is the arrays' batch row 8t + b. -/
abbrev row (t : Fin cfg0.N) (b : Fin 8) : Fin 128 :=
  ⟨8 * t.val + b.val, by have := lt_of_lt_of_eq t.isLt sixteen; have := b.isLt; omega⟩

/-- Every window's block index at point t is (t, 0, 0, 0): decided over the grid. -/
theorem block_index : ∀ t : Fin cfg0.N, (win0_0.index t 0 = t.val ∧ win0_0.index t 1 = 0 ∧ win0_0.index t 2 = 0 ∧ win0_0.index t 3 = 0) ∧ (win0_1.index t 0 = t.val ∧ win0_1.index t 1 = 0 ∧ win0_1.index t 2 = 0 ∧ win0_1.index t 3 = 0) ∧ (win0_2.index t 0 = t.val ∧ win0_2.index t 1 = 0 ∧ win0_2.index t 2 = 0 ∧ win0_2.index t 3 = 0) ∧ (win0_3.index t 0 = t.val ∧ win0_3.index t 1 = 0 ∧ win0_3.index t 2 = 0 ∧ win0_3.index t 3 = 0) :=
  (by decide +kernel : ∀ t : Fin grid0.N, (win0_0.index t 0 = t.val ∧ win0_0.index t 1 = 0 ∧ win0_0.index t 2 = 0 ∧ win0_0.index t 3 = 0) ∧ (win0_1.index t 0 = t.val ∧ win0_1.index t 1 = 0 ∧ win0_1.index t 2 = 0 ∧ win0_1.index t 3 = 0) ∧ (win0_2.index t 0 = t.val ∧ win0_2.index t 1 = 0 ∧ win0_2.index t 2 = 0 ∧ win0_2.index t 3 = 0) ∧ (win0_3.index t 0 = t.val ∧ win0_3.index t 1 = 0 ∧ win0_3.index t 2 = 0 ∧ win0_3.index t 3 = 0))

/-- Entry (b, ch, h, w) of window 0's block at point t is entry (8t + b, ch, h, w) of its array. -/
theorem blk0_apply (c : Dev nD) (t : Fin cfg0.N) (b : Fin 8) (ch : Fin 5) (h w : Fin 128) :
    blk0 m c t (ix4 b ch h w) = arr0 m c (ix4 (row t b) ch h w) := by
  show iblk m c 0 t (ix4 b ch h w) = _
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t 0 * 8 + 1 * b.val = 8 * t.val + b.val; rw [(block_index t).1.1]; omega
  | ⟨1, _⟩ => show win0_0.index t 1 * 5 + 1 * ch.val = ch.val; rw [(block_index t).1.2.1]; omega
  | ⟨2, _⟩ => show win0_0.index t 2 * 128 + 1 * h.val = h.val; rw [(block_index t).1.2.2.1]; omega
  | ⟨3, _⟩ => show win0_0.index t 3 * 128 + 1 * w.val = w.val; rw [(block_index t).1.2.2.2]; omega

/-- Entry (b, ch, h, w) of window 1's block at point t is entry (8t + b, ch, h, w) of its array. -/
theorem blk1_apply (c : Dev nD) (t : Fin cfg0.N) (b : Fin 8) (ch : Fin 5) (h w : Fin 128) :
    blk1 m c t (ix4 b ch h w) = arr1 m c (ix4 (row t b) ch h w) := by
  show iblk m c 1 t (ix4 b ch h w) = _
  unfold iblk
  rw [View.read_apply]
  show V m c main_arg1 _ = m ((c : Thread nD τ).loc main_arg1) _
  rw [V_main_arg1]
  refine congrArg (m ((c : Thread nD τ).loc main_arg1)) (funext fun a => Fin.ext ?_)
  match a with
  | ⟨0, _⟩ => show win0_1.index t 0 * 8 + 1 * b.val = 8 * t.val + b.val; rw [(block_index t).2.1.1]; omega
  | ⟨1, _⟩ => show win0_1.index t 1 * 5 + 1 * ch.val = ch.val; rw [(block_index t).2.1.2.1]; omega
  | ⟨2, _⟩ => show win0_1.index t 2 * 128 + 1 * h.val = h.val; rw [(block_index t).2.1.2.2.1]; omega
  | ⟨3, _⟩ => show win0_1.index t 3 * 128 + 1 * w.val = w.val; rw [(block_index t).2.1.2.2.2]; omega

/-- Entry (b, ch, h, w) of window 2's block at point t is entry (8t + b, ch, h, w) of its array. -/
theorem blk2_apply (c : Dev nD) (t : Fin cfg0.N) (b : Fin 8) (ch : Fin 5) (h w : Fin 128) :
    blk2 m c t (ix4 b ch h w) = arr2 m c (ix4 (row t b) ch h w) := by
  show iblk m c 2 t (ix4 b ch h w) = _
  unfold iblk
  rw [View.read_apply]
  show V m c main_arg2 _ = m ((c : Thread nD τ).loc main_arg2) _
  rw [V_main_arg2]
  refine congrArg (m ((c : Thread nD τ).loc main_arg2)) (funext fun a => Fin.ext ?_)
  match a with
  | ⟨0, _⟩ => show win0_2.index t 0 * 8 + 1 * b.val = 8 * t.val + b.val; rw [(block_index t).2.2.1.1]; omega
  | ⟨1, _⟩ => show win0_2.index t 1 * 5 + 1 * ch.val = ch.val; rw [(block_index t).2.2.1.2.1]; omega
  | ⟨2, _⟩ => show win0_2.index t 2 * 128 + 1 * h.val = h.val; rw [(block_index t).2.2.1.2.2.1]; omega
  | ⟨3, _⟩ => show win0_2.index t 3 * 128 + 1 * w.val = w.val; rw [(block_index t).2.2.1.2.2.2]; omega

/-- Entry (b, ch, h, w) of window 3's block at point t is entry (8t + b, ch, h, w) of its array. -/
theorem blk3_apply (c : Dev nD) (t : Fin cfg0.N) (b : Fin 8) (ch : Fin 5) (h w : Fin 128) :
    blk3 m c t (ix4 b ch h w) = arr3 m c (ix4 (row t b) ch h w) := by
  show iblk m c 3 t (ix4 b ch h w) = _
  unfold iblk
  rw [View.read_apply]
  show V m c main_arg3 _ = m ((c : Thread nD τ).loc main_arg3) _
  rw [V_main_arg3]
  refine congrArg (m ((c : Thread nD τ).loc main_arg3)) (funext fun a => Fin.ext ?_)
  match a with
  | ⟨0, _⟩ => show win0_3.index t 0 * 8 + 1 * b.val = 8 * t.val + b.val; rw [(block_index t).2.2.2.1]; omega
  | ⟨1, _⟩ => show win0_3.index t 1 * 5 + 1 * ch.val = ch.val; rw [(block_index t).2.2.2.2.1]; omega
  | ⟨2, _⟩ => show win0_3.index t 2 * 128 + 1 * h.val = h.val; rw [(block_index t).2.2.2.2.2.1]; omega
  | ⟨3, _⟩ => show win0_3.index t 3 * 128 + 1 * w.val = w.val; rw [(block_index t).2.2.2.2.2.2]; omega

/-- So the loss of batch row b of point t's blocks is the loss of the arrays' batch row 8t + b. -/
theorem rowLoss_block (c : Dev nD) (t : Fin cfg0.N) (b : Fin 8) :
    rowLoss (blk0 m c t) (blk1 m c t) (blk2 m c t) (blk3 m c t) b
      = rowLoss (arr0 m c) (arr1 m c) (arr2 m c) (arr3 m c) (row t b) := by
  unfold rowLoss
  refine Finset.sum_congr rfl fun h _ => Finset.sum_congr rfl fun w _ => ?_
  have e0 : col (blk0 m c t) b h w = col (arr0 m c) (row t b) h w := funext fun ch => blk0_apply m c t b ch h w
  have e1 : col (blk1 m c t) b h w = col (arr1 m c) (row t b) h w := funext fun ch => blk1_apply m c t b ch h w
  have e2 : col (blk2 m c t) b h w = col (arr2 m c) (row t b) h w := funext fun ch => blk2_apply m c t b ch h w
  have e3 : col (blk3 m c t) b h w = col (arr3 m c) (row t b) h w := funext fun ch => blk3_apply m c t b ch h w
  rw [e0, e1, e2, e3]

/-! ## The running total -/

/-- The loss of the blocks point n loads (zero past the grid). -/
def addend (c : Dev nD) (n : ℕ) : EReal :=
  if h : n < cfg0.N then batchLoss (blk0 m c ⟨n, h⟩) (blk1 m c ⟨n, h⟩) (blk2 m c ⟨n, h⟩) (blk3 m c ⟨n, h⟩) else 0

theorem addend_of_lt (c : Dev nD) (n : ℕ) (h : n < cfg0.N) :
    addend m c n = batchLoss (blk0 m c ⟨n, h⟩) (blk1 m c ⟨n, h⟩) (blk2 m c ⟨n, h⟩) (blk3 m c ⟨n, h⟩) := dif_pos h

/-- The total after point n: the losses of the blocks of points 0 … n. -/
def running (c : Dev nD) (n : ℕ) : EReal := ∑ k ∈ Finset.range (n + 1), addend m c k

theorem running_zero (c : Dev nD) : running m c 0 = addend m c 0 := Finset.sum_range_one _
theorem running_succ (c : Dev nD) (n : ℕ) : running m c (n + 1) = running m c n + addend m c (n + 1) :=
  Finset.sum_range_succ _ _

/-- After point n the scratch cell holds the running total: the first point leaves its block's loss over the reset
    value, every later point adds its block's loss to what the point before left. -/
theorem scratch_eq (c : Dev nD) : ∀ (n : ℕ) (hn : n < cfg0.N), (outsAt0 m c n hn).2 = fun _ => running m c n
  | 0, hn => by
    rw [show outsAt0 m c 0 hn = _ from outsAt0_A m c ⟨0, hn⟩ (Nat.zero_mod 16) (by show ¬(0 : ℕ) % 16 = 15; omega)]
    dsimp only
    refine (Found.scratch_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) _ _ (blk0 m c ⟨0, hn⟩) (blk1 m c ⟨0, hn⟩) (blk2 m c ⟨0, hn⟩) (blk3 m c ⟨0, hn⟩)).trans ?_
    refine (BlockValue.update_reset _ _ _ _).trans ?_
    funext _
    rw [running_zero, addend_of_lt m c 0 hn]
  | n + 1, hn => by
    have hN : n + 1 < 16 := lt_of_lt_of_eq hn (sixteen)
    have h0 : ¬(n + 1) % 16 = 0 := by omega
    have ih := scratch_eq c n (Nat.lt_of_succ_lt hn)
    by_cases h1 : (n + 1) % 16 = 15
    · rw [show outsAt0 m c (n + 1) hn = _ from outsAt0_C m c ⟨n + 1, hn⟩ h0 h1]
      dsimp only
      refine (Found.scratch_last (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) _ _ (blk0 m c ⟨n + 1, hn⟩) (blk1 m c ⟨n + 1, hn⟩) (blk2 m c ⟨n + 1, hn⟩) (blk3 m c ⟨n + 1, hn⟩)
        (outsAt0 m c n (Nat.lt_of_succ_lt hn)).2).trans ?_
      rw [ih]
      refine (BlockValue.update_const _ _ _ _ _).trans ?_
      funext _
      exact ((running_succ m c n).trans (congrArg (running m c n + ·) (addend_of_lt m c (n + 1) hn))).symm
    · rw [show outsAt0 m c (n + 1) hn = _ from outsAt0_B m c ⟨n + 1, hn⟩ h0 h1]
      dsimp only
      refine (Found.scratch_middle (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) _ _ (blk0 m c ⟨n + 1, hn⟩) (blk1 m c ⟨n + 1, hn⟩) (blk2 m c ⟨n + 1, hn⟩) (blk3 m c ⟨n + 1, hn⟩)
        (outsAt0 m c n (Nat.lt_of_succ_lt hn)).2).trans ?_
      rw [ih]
      refine (BlockValue.update_const _ _ _ _ _).trans ?_
      funext _
      exact ((running_succ m c n).trans (congrArg (running m c n + ·) (addend_of_lt m c (n + 1) hn))).symm

/-- At the last point the output block holds the total after that point. -/
theorem output_eq (c : Dev nD) (t : Fin cfg0.N) (ht : t.val = 15) :
    (outsAt0 m c t.val t.isLt).1 = fun _ => running m c 15 := by
  obtain ⟨n, hn⟩ := t
  dsimp only at ht
  subst ht
  rw [outsAt0_C m c ⟨15, hn⟩ (by show ¬(15 : ℕ) % 16 = 0; omega) (by show (15 : ℕ) % 16 = 15; rfl)]
  dsimp only
  refine (Found.output_last (F := Ideal) c (grid0.coords ⟨15, hn⟩) (ms0_0 ⟨15, hn⟩) (hs0_0 ⟨15, hn⟩) (ms0_1 ⟨15, hn⟩) (hs0_1 ⟨15, hn⟩) (ms0_2 ⟨15, hn⟩) (hs0_2 ⟨15, hn⟩) (ms0_3 ⟨15, hn⟩) (hs0_3 ⟨15, hn⟩) (ms0_4 ⟨15, hn⟩) (hs0_4 ⟨15, hn⟩) scM0_0 (Memref.isWhole_whole _) _ _ (blk0 m c ⟨15, hn⟩) (blk1 m c ⟨15, hn⟩) (blk2 m c ⟨15, hn⟩) (blk3 m c ⟨15, hn⟩)
    (outsAt0 m c 14 (Nat.lt_of_succ_lt hn)).2).trans ?_
  rw [scratch_eq m c 14 (Nat.lt_of_succ_lt hn)]
  refine (BlockValue.update_const _ _ _ _ _).trans ?_
  funext _
  exact ((running_succ m c 14).trans (congrArg (running m c 14 + ·) (addend_of_lt m c 15 hn))).symm

/-- The total after the last point is the loss of the whole arrays. -/
theorem running_last (c : Dev nD) :
    running m c 15 = batchLoss (arr0 m c) (arr1 m c) (arr2 m c) (arr3 m c) := by
  unfold running batchLoss
  rw [sum_rows_eq_sum_groups]
  refine Finset.sum_congr rfl fun n hn => ?_
  have hn16 : n < 16 := Finset.mem_range.mp hn
  have hnN : n < cfg0.N := lt_of_lt_of_eq hn16 sixteen.symm
  rw [dif_pos hn16, addend_of_lt m c n hnN]
  unfold batchLoss
  exact Finset.sum_congr rfl fun b _ => rowLoss_block m c ⟨n, hnN⟩ b

end Cert.KernelIdeal.Running

end
-- ==== Proof.KernelRun.lean ====
/-
  The idealized kernel's run, read: its result is the loss of the whole argument arrays.

  The output window is one [1, 1] block whose index never moves; the pipeline writes it back once, after the last grid
  point, and that block is the whole [1, 1] result array. What the body left in it there is the running total after the
  last point (Running.output_eq), so the result array ends holding that one value; the host line after the region
  reshapes the [1, 1] array to a scalar, which holds the same value; and the running total after the last point is the
  loss of the whole arrays (Running.running_last). The argument arrays are inputs of the pipeline and are never written.
-/
import proofs.«161553_j86655260164796_1_alg».proof.Proof.Gen.KernelIdeal.Frame
import proofs.«161553_j86655260164796_1_alg».proof.Proof.Running
import Idealize.ShloMosaic.Lib.Pipeline.Value
import Idealize.ShloMosaic.Lib.StableHlo.Run
import Idealize.ShloMosaic.Lib.Tactic

noncomputable section

namespace Cert.KernelIdeal.KernelRun

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Running Cert.MaskedLoss

variable (m : (ℓ : Loc nD τ sig) → Buf (Elt Ideal) ℓ) (ρ : Dev nD → PrngReg)

/-- The contents the [1, 1] result array ends with: the total after the last point at its one index. -/
abbrev total (c : Dev nD) : Buf (Elt Ideal) ((c : Thread nD τ).loc main_v0) := fun _ => running m c 15

/-- The one write-back, after point 15, writes that value: its block, at block index (0, 0), is the whole array. -/
theorem flushed_eq (c : Dev nD) (t : Fin cfg0.N) (hf : (cfg0.win 4).flush t = true) :
    (dats m 0 c).flushed 4 t = ((cfg0.win 4).blk t).view.read (Elt Ideal) (total m c) := by
  have hN : cfg0.N = 16 := N_0
  have h15 : t.val = 15 := by have := (flush0_4 t).mp hf; have := t.isLt; omega
  show (cfg0.win 4).cut (grid0.coords t) ((dats m 0 c).after 4 t) = _
  rw [after0_4, output_eq m c t h15]
  obtain rfl : t = t0_15 := Fin.ext h15
  have hz : (fun a => win0_4.index t0_15 a * main_v0.ty.shape.size a) = fun _ => 0 :=
    funext fun a => by fin_cases a <;> decide
  exact (Memref.read_access_unit_zero (Elt Ideal) main_v0 hz (fun a => by rw [congrFun hz a]; simp) (total m c)).symm

/-- So the result array ends holding the total: the block written back after point 15 covers it. -/
theorem final (c : Dev nD) : (dats m 0 c).arrAt 4 cfg0.N = total m c :=
  (dats m 0 c).arrAt_eq_of_cover 4 (total m c) (flushed_eq m c) fun i =>
    ⟨t0_15, (flush0_4 t0_15).mpr rfl, by
      show i ∈ ((View.whole main_v0).slice (win0_4.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index t0_15 0 * win0_4.size 0 ≤ (i 0 : Nat)
          ∧ (i 0 : Nat) < win0_4.index t0_15 0 * win0_4.size 0 + win0_4.xsize (grid0.coords t0_15) 0
        rw [show win0_4.index t0_15 0 * win0_4.size 0 = 0 from by decide +kernel,
          show win0_4.xsize (grid0.coords t0_15) 0 = 1 from by decide +kernel]
        omega
      | ⟨1, _⟩ =>
        show win0_4.index t0_15 1 * win0_4.size 1 ≤ (i 1 : Nat)
          ∧ (i 1 : Nat) < win0_4.index t0_15 1 * win0_4.size 1 + win0_4.xsize (grid0.coords t0_15) 1
        rw [show win0_4.index t0_15 1 * win0_4.size 1 = 0 from by decide +kernel,
          show win0_4.xsize (grid0.coords t0_15) 1 = 1 from by decide +kernel]
        omega⟩

/-- The host line after the region reshapes the result array to a scalar: the same one value. -/
theorem tail_eq (c : Dev nD) :
    Pipeline.afterTail₀ cfgs (dats m) 0 (V0 m) [hostOps1] c main_v1 = fun _ => running m c 15 := by
  unfold Pipeline.afterTail₀
  show StableHlo.after hostOps1 _ (Proc.devRef .tc main_v1) = _
  after_results
  -- the region's exit contents at the result array are what the write-backs left there
  have hA : Pipeline.withArrays (cfgs 0).spec c (V0 m c) (fun w => (dats m 0 c).arrAt w (cfgs 0).N)
      (Proc.tc.devRef main_v0) = total m c :=
    (Pipeline.withArrays_arr spec0 launch0.win.arr_inj c _ _ 4).trans (final m c)
  funext i
  rw [hA]
  rfl

/-- The run, read: the scalar result at the loss of the whole argument arrays, the arguments unchanged. -/
theorem run : θ_run defs (onTc (τ := τ) (main (F := Ideal))) ⟨m, fun _ => 0, ρ⟩ fun r => ∀ c : Dev nD,
      r.2.mem ((c.tc : Thread nD τ).loc main_v1) = (fun _ => batchLoss (arr0 m c) (arr1 m c) (arr2 m c) (arr3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v1 (Pipeline.mem_restRefs_of main_v1 rfl (by decide))).trans
        ((tail_eq m c).trans (funext fun _ => running_last m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KernelRun

end
-- ==== Proof.LibSumIdx.lean ====
/-
  Sums over index sets of rank 3 and rank 4, by coordinates: such an index set is the product of its coordinate
  ranges, so a sum over it (in any commutative monoid) is the iterated sum over the coordinates, outermost
  coordinate first. The rank-2 case is the library's sum_idx2; these follow it.
-/
import Idealize.ShloMosaic.Lib.ValueIdx

open scoped BigOperators

namespace Cert.LibSumIdx

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over one coordinate range of extent one is its one term. -/
theorem sum_fin_one {M : Type*} [AddCommMonoid M] (f : Fin 1 → M) : ∑ a : Fin 1, f a = f 0 := by
  simp

end Cert.LibSumIdx
-- ==== Proof.RefValue.lean ====
/-
  The reference's result, at the ideal instance, is the loss of the four whole arrays.

  The reference sums, from zero, over every cell (b, h, w) of [128, 128, 128] the select on "channel 0 of a0 at the cell
  is not zero" between the channel sum (from zero) of (a0 − a2)² + (a1 − a3)² at the cell and zero. The sum over the cell
  set is the iterated sum over its three coordinates; the channel-0 slice with its unit axis dropped reads a0 at
  (b, 0, h, w); and the reduce over axis 1 reads its operand at (b, c, h, w). What is left is MaskedLoss.cellOf of the
  four columns at the cell.
-/
import proofs.«161553_j86655260164796_1_alg».proof.Proof.Gen.ReferenceIdeal.Read
import proofs.«161553_j86655260164796_1_alg».proof.Proof.MaskedLoss
import proofs.«161553_j86655260164796_1_alg».proof.Proof.LibSumIdx
import Idealize.ShloMosaic.Lib.ValueIdx
import Idealize.ShloMosaic.PureOps.Ideal.Laws

open scoped BigOperators

noncomputable section

namespace Cert.ReferenceIdeal.RefValue

open Idealize.ShloMosaic Idealize.ShloMosaic.ValueIdx
open Cert.ReferenceIdeal Cert.ReferenceIdeal.Gen Cert.ReferenceIdeal.Read Cert.MaskedLoss Cert.LibSumIdx

/-- The channel-0 slice, reshaped to drop its unit axis, reads the cell (b, h, w) at (b, 0, h, w). -/
theorem mask_index (b h w : Fin 128) : idx_main_v0 (idx_main_v1 (ix3 b h w)) = ix4 b (0 : Fin 5) h w := by
  have hb := b.isLt; have hh := h.isLt; have hw := w.isLt
  funext a
  apply Fin.ext
  match a with
  | ⟨0, _⟩ => show ((b.val * 128 + h.val) * 128 + w.val) / 16384 = b.val; omega
  | ⟨1, _⟩ => rfl
  | ⟨2, _⟩ => show ((b.val * 128 + h.val) * 128 + w.val) / 128 % 128 = h.val; omega
  | ⟨3, _⟩ => show ((b.val * 128 + h.val) * 128 + w.val) % 128 = w.val; omega

/-- The reduce over the channel axis reads channel c of the cell (b, h, w) at (b, c, h, w). -/
theorem channel_index (b h w : Fin 128) (c : Fin 5) : idx_main_v9 (ix3 b h w) c = ix4 b c h w := by
  funext a
  apply Fin.ext
  match a with
  | ⟨0, _⟩ => rfl
  | ⟨1, _⟩ => rfl
  | ⟨2, _⟩ => rfl
  | ⟨3, _⟩ => rfl

/-- The select stage at one cell is the cell's contribution. -/
theorem cell_eq (a0 a1 a2 a3 : FVec Ideal S128x5x128x128 .f32) (b h w : Fin 128) :
    val_main_v11 (F := Ideal) a0 a1 a2 a3 (ix3 b h w)
      = cellOf (col a0 b h w) (col a1 b h w) (col a2 b h w) (col a3 b h w) := by
  rw [val_main_v11_apply, val_main_v3_apply, val_main_v1_apply, val_main_v0_apply, val_main_v2_apply,
    val_main_cst_apply, val_main_v9_apply, val_main_cst_0_apply, val_main_v10_apply, val_main_cst_1_apply, mask_index]
  simp only [channel_index, val_main_v8_apply, val_main_v5_apply, val_main_v7_apply, val_main_v4_apply, val_main_v6_apply]
  show Scalar.select (Ideal.cmp .une (a0 (ix4 b 0 h w)) (Ideal.ofBits .f32 0x00000000#32))
      (Ideal.ofBits .f32 0x00000000#32 + _) (Ideal.ofBits .f32 0x00000000#32) = _
  rw [Ideal.ofBits_zero_f32, zero_add, select_ne_zero .une (.inr rfl)]
  rfl

/-- The reference's result at its one index: the loss of the whole arrays. -/
theorem result_eq (a0 a1 a2 a3 : FVec Ideal S128x5x128x128 .f32) (i : S_.Idx) :
    val_main_v12 (F := Ideal) a0 a1 a2 a3 i = batchLoss a0 a1 a2 a3 := by
  rw [val_main_v12_apply, val_main_cst_2_apply]
  show Ideal.ofBits .f32 0x00000000#32 + _ = _
  rw [Ideal.ofBits_zero_f32, zero_add, sum_idx3]
  unfold batchLoss rowLoss
  exact Finset.sum_congr rfl fun b _ => Finset.sum_congr rfl fun h _ => Finset.sum_congr rfl fun w _ =>
    cell_eq a0 a1 a2 a3 b h w

end Cert.ReferenceIdeal.RefValue

end
-- ==== Proof.lean ====
/-
  The masked squared-difference loss: a pipelined kernel that accumulates over sixteen batch blocks against one whole sum.

  Both programs take four arrays a0 a1 a2 a3 of shape [128, 5, 128, 128] and return one scalar: the sum, over the cells
  (b, h, w) at which channel 0 of a0 is not zero, of Σ_c ((a0 − a2)² + (a1 − a3)²)(b, c, h, w).

  The reference forms the per-cell channel sums for the whole arrays, selects on the mask, and adds all 128³ cells in one
  reduction (RefValue: that is MaskedLoss.batchLoss of the whole arrays).

  The kernel walks the batch axis in sixteen blocks of eight rows. At each grid point it computes the same per-cell term
  on the block, adds the cells one axis at a time (lanes, rows, then the eight batch rows: BlockValue), and adds the block's
  total to a one-cell scratch that the first point resets (Found, Running.scratch_eq, by induction on the point); the last
  point copies the scratch to the [1, 1] output block, the only block ever written back, and a reshape makes it the scalar
  result (KernelRun). Block t's batch row b is the arrays' row 8t + b, so the sixteen block totals are the 128 row totals
  grouped eight at a time, and the two results are the same extended real because addition of extended reals is
  commutative and associative (MaskedLoss.sum_rows_eq_sum_groups). No other law is used: nothing is distributed or
  cancelled, so the equality holds at infinite entries too and the finiteness of the inputs is never opened.

  The mask is written with the ordered not-equal test in the kernel and the unordered one in the reference; over the
  extended reals, which have no unordered pair, these are one test (MaskedLoss.select_ne_zero).

  The three frames: the two kernel programs' are the generated frame runs; the reference has no kernel and its frame is
  its generated run with the result dropped. The idealization rewrote no operation, so there is nothing to preserve.
-/
import proofs.«161553_j86655260164796_1_alg».proof.Defs
import proofs.«161553_j86655260164796_1_alg».proof.Proof.Gen.Kernel
import proofs.«161553_j86655260164796_1_alg».proof.Proof.Gen.Kernel.Skeleton
import proofs.«161553_j86655260164796_1_alg».proof.Proof.Gen.Kernel.Launch
import proofs.«161553_j86655260164796_1_alg».proof.Proof.Gen.Kernel.Points
import proofs.«161553_j86655260164796_1_alg».proof.Proof.Gen.Kernel.Frame
import proofs.«161553_j86655260164796_1_alg».proof.Proof.Gen.KernelIdeal
import proofs.«161553_j86655260164796_1_alg».proof.Proof.Gen.KernelIdeal.Skeleton
import proofs.«161553_j86655260164796_1_alg».proof.Proof.Gen.KernelIdeal.Launch
import proofs.«161553_j86655260164796_1_alg».proof.Proof.Gen.KernelIdeal.Points
import proofs.«161553_j86655260164796_1_alg».proof.Proof.Gen.KernelIdeal.Frame
import proofs.«161553_j86655260164796_1_alg».proof.Proof.Gen.ReferenceIdeal
import proofs.«161553_j86655260164796_1_alg».proof.Proof.Gen.ReferenceIdeal.Run
import proofs.«161553_j86655260164796_1_alg».proof.Proof.Gen.ReferenceIdeal.Read
import proofs.«161553_j86655260164796_1_alg».proof.Proof.Gen.Pre_finite_inputs
import proofs.«161553_j86655260164796_1_alg».proof.Proof.KernelRun
import proofs.«161553_j86655260164796_1_alg».proof.Proof.RefValue
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the loss of the whole argument arrays as their scalar result: the kernel by its run
    read through the grid's running total, the reference by its run read one operation at a time; the arguments agree,
    so the two losses are the same number. -/
theorem algebraic : Cert.algebraic_KernelIdeal_ReferenceIdeal := by
  intro m ρ m' ρ' _ hagree
  refine ⟨fun c _ => Cert.MaskedLoss.batchLoss (Cert.KernelIdeal.Running.arr0 m c) (Cert.KernelIdeal.Running.arr1 m c)
    (Cert.KernelIdeal.Running.arr2 m c) (Cert.KernelIdeal.Running.arr3 m c), Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v12_eq]
  funext i
  exact Cert.ReferenceIdeal.RefValue.result_eq _ _ _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
